-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  main_v3
-- ==== Kernel.lean ====
abbrev S2x16x2048x64 : Shape := ⟨4, ![2, 16, 2048, 64]⟩
abbrev S1x1x2048x64 : Shape := ⟨4, ![1, 1, 2048, 64]⟩
abbrev S2048x64 : Shape := ⟨2, ![2048, 64]⟩
abbrev S64x64 : Shape := ⟨2, ![64, 64]⟩

abbrev nBuf : Space → Nat
  | .hbm => 2
  | .vmem => 4
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .local _ .vmem, ⟨0, _⟩ => ⟨S1x1x2048x64, .f32⟩
  | .local _ .vmem, ⟨1, _⟩ => ⟨S1x1x2048x64, .f32⟩
  | .local _ .vmem, ⟨2, _⟩ => ⟨S1x1x2048x64, .f32⟩
  | .local _ .vmem, ⟨3, _⟩ => ⟨S1x1x2048x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  bitsLt_bf16_f32 : FTy.bits .bf16 < FTy.bits .f32
  shapeCasts_S2048x64_S1x1x2048x64 : S2048x64.ShapeCasts S1x1x2048x64
  dot_S2048x64_S2048x64_S64x64_0_0_1_1_n_n_wf : DotDims.WF S2048x64 S2048x64 S64x64 [0] [0] [1] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048x64.size a ≤ S2x16x2048x64.size a
  hwx0_0 : ∀ i : grid0.Coords, EltTy.bits .f32 = 32 ∨ (Rect.block (s := S2x16x2048x64) S1x1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)

variable [Facts₀]

def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_arg0) S1x1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x2048, .f32⟩
  | .hbm, ⟨2, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]

class Facts₀ : Prop where
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibLinear.lean ====
/-
  Finite sums of real numbers inside the extended reals, and the exchange of a weighted row sum with a matrix product.

  For rows x e (e in a finite set S) with real entries, real weights c e and a real column W:
    Σ k, (Σ e ∈ S, x e k · c e) · W k  =  Σ e ∈ S, (Σ k, x e k · W k) · c e.
  Both sides are the real number Σ e ∈ S, Σ k, x e k · c e · W k; on the extended reals the law needs every factor
  finite, because a product does not distribute over a sum that mixes infinities.
-/
import Idealize.ShloMosaic.PureOps.Ideal

noncomputable section

namespace Cert.LibLinear

/-- The extended real of a finite sum of reals is the sum of the extended reals. -/
theorem coe_sum {ι : Type} (S : Finset ι) (f : ι → ℝ) : ((∑ i ∈ S, f i : ℝ) : EReal) = ∑ i ∈ S, (f i : EReal) := by
  classical
  refine Finset.induction_on S ?_ ?_
  · simp
  · intro a s ha ih
    rw [Finset.sum_insert ha, Finset.sum_insert ha, EReal.coe_add, ih]

/-- A finite sum of extended reals that are all real is real. -/
theorem sum_real {ι : Type} (S : Finset ι) (f : ι → EReal) (hf : ∀ i ∈ S, ∃ r : ℝ, f i = (r : EReal)) :
    ∃ r : ℝ, ∑ i ∈ S, f i = (r : EReal) := by
  refine ⟨∑ i ∈ S, (f i).toReal, ?_⟩
  rw [coe_sum]
  refine Finset.sum_congr rfl (fun i hi => ?_)
  obtain ⟨r, hr⟩ := hf i hi
  rw [hr, EReal.toReal_coe]

/-- The exchange law. -/
theorem exchange {E K : Type} [Fintype K] (S : Finset E) (x : E → K → EReal) (cw : E → EReal) (W : K → EReal)
    (hx : ∀ e k, ∃ r : ℝ, x e k = (r : EReal)) (hc : ∀ e, ∃ r : ℝ, cw e = (r : EReal)) (hW : ∀ k, ∃ r : ℝ, W k = (r : EReal)) :
    ∑ k : K, (∑ e ∈ S, x e k * cw e) * W k = ∑ e ∈ S, (∑ k : K, x e k * W k) * cw e := by
  -- real witnesses for every entry
  choose xr hxr using hx
  choose cr hcr using hc
  choose Wr hWr using hW
  -- the left side is the extended real of a real double sum
  have hL : ∑ k : K, (∑ e ∈ S, x e k * cw e) * W k
      = ((∑ k : K, (∑ e ∈ S, xr e k * cr e) * Wr k : ℝ) : EReal) := by
    rw [coe_sum]
    refine Finset.sum_congr rfl (fun k _ => ?_)
    rw [EReal.coe_mul, coe_sum, hWr]
    congr 1
    refine Finset.sum_congr rfl (fun e _ => ?_)
    rw [EReal.coe_mul, hxr, hcr]
  -- so is the right side
  have hR : ∑ e ∈ S, (∑ k : K, x e k * W k) * cw e
      = ((∑ e ∈ S, (∑ k : K, xr e k * Wr k) * cr e : ℝ) : EReal) := by
    rw [coe_sum]
    refine Finset.sum_congr rfl (fun e _ => ?_)
    rw [EReal.coe_mul, coe_sum, hcr]
    congr 1
    refine Finset.sum_congr rfl (fun k _ => ?_)
    rw [EReal.coe_mul, hxr, hWr]
  rw [hL, hR]
  congr 1
  -- over the reals: distribute, swap the two sums, and compare term by term
  simp only [Finset.sum_mul]
  rw [Finset.sum_comm]
  refine Finset.sum_congr rfl (fun e _ => Finset.sum_congr rfl (fun k _ => ?_))
  ring

end Cert.LibLinear

end
-- ==== Proof.Regroup.lean ====
/-
  Unnormalised attention with queries, keys and values all equal to one array x of shape [2, 16, 2048, 64],
  written in its two arrangements, and the law that joins them.

  Within one (batch, head) pair write x t e for the entry at row t and column e. The first arrangement forms the
  2048 × 2048 matrix of row products and applies it to x:
      out p q = Σ t, (Σ e, x p e · x t e) · x t q.
  The second forms the 64 × 64 matrix G e q = Σ t, x t e · x t q first and applies x to it:
      out p q = Σ e, x p e · (Σ t, x t e · x t q).
  Both are the real number Σ e, Σ t, x p e · x t e · x t q when every entry is real: the matrix product is
  associative. On the extended reals the law needs every entry finite, because a product does not distribute over a
  sum that mixes infinities.
-/
import Idealize.ShloMosaic.PureOps.Ideal
import Idealize.ShloMosaic.Lib.ValueIdx
import proofs.«100322_j52261162058330_1_alg».proof.Proof.LibLinear

noncomputable section

namespace Cert.Regroup

open Idealize.ShloMosaic Idealize.ShloMosaic.ValueIdx Cert.LibLinear

/-- (x xᵀ) x = x (xᵀ x), entry by entry, over finite index types, for real entries. -/
theorem rows_then_values_eq {T D : Type} [Fintype T] [Fintype D] (x : T → D → EReal)
    (hx : ∀ t e, ∃ r : ℝ, x t e = (r : EReal)) (p : T) (q : D) :
    ∑ e : D, x p e * (∑ t : T, x t e * x t q) = ∑ t : T, (∑ e : D, x p e * x t e) * x t q := by
  choose xr hxr using hx
  -- the left side is the extended real of a real double sum
  have hL : ∑ e : D, x p e * (∑ t : T, x t e * x t q)
      = ((∑ e : D, xr p e * (∑ t : T, xr t e * xr t q) : ℝ) : EReal) := by
    rw [coe_sum]
    refine Finset.sum_congr rfl (fun e _ => ?_)
    rw [EReal.coe_mul, coe_sum, hxr p e]
    congr 1
    refine Finset.sum_congr rfl (fun t _ => ?_)
    rw [EReal.coe_mul, hxr t e, hxr t q]
  -- so is the right side
  have hR : ∑ t : T, (∑ e : D, x p e * x t e) * x t q
      = ((∑ t : T, (∑ e : D, xr p e * xr t e) * xr t q : ℝ) : EReal) := by
    rw [coe_sum]
    refine Finset.sum_congr rfl (fun t _ => ?_)
    rw [EReal.coe_mul, coe_sum, hxr t q]
    congr 1
    refine Finset.sum_congr rfl (fun e _ => ?_)
    rw [EReal.coe_mul, hxr p e, hxr t e]
  rw [hL, hR]
  congr 1
  -- over the reals: distribute on both sides, swap the two sums, compare term by term
  simp only [Finset.mul_sum, Finset.sum_mul]
  rw [Finset.sum_comm]
  refine Finset.sum_congr rfl (fun t _ => Finset.sum_congr rfl (fun e _ => ?_))
  ring

/-- The shape of the argument and of the result. -/
abbrev SX : Shape := ⟨4, ![2, 16, 2048, 64]⟩

/-- The first arrangement at (b, h, p, q): the row products of head (b, h), applied to its values. -/
def scoresApplied (x : SX.Idx → EReal) (b : Fin 2) (h : Fin 16) (p : Fin 2048) (q : Fin 64) : EReal :=
  ∑ t : Fin 2048, (∑ e : Fin 64, x (ix4 b h p e) * x (ix4 b h t e)) * x (ix4 b h t q)

/-- The second arrangement at (b, h, p, q): row p of head (b, h) applied to that head's 64 × 64 matrix xᵀ x. -/
def gramApplied (x : SX.Idx → EReal) (b : Fin 2) (h : Fin 16) (p : Fin 2048) (q : Fin 64) : EReal :=
  ∑ e : Fin 64, x (ix4 b h p e) * (∑ t : Fin 2048, x (ix4 b h t e) * x (ix4 b h t q))

/-- The result array, in the first arrangement. -/
def attn (x : SX.Idx → EReal) : SX.Idx → EReal := fun i => scoresApplied x (i 0) (i 1) (i 2) (i 3)

/-- The two arrangements agree where every entry of x is real. -/
theorem gramApplied_eq (x : SX.Idx → EReal) (hx : ∀ i, ∃ r : ℝ, x i = (r : EReal))
    (b : Fin 2) (h : Fin 16) (p : Fin 2048) (q : Fin 64) : gramApplied x b h p q = scoresApplied x b h p q :=
  rows_then_values_eq (fun (t : Fin 2048) (e : Fin 64) => x (ix4 b h t e)) (fun _ _ => hx _) p q

end Cert.Regroup

end
-- ==== Proof.Finite.lean ====
/-
  Under the precondition every entry of the argument is a real number.

  The printed precondition compares |x| = max x (-x), entry by entry, with the float +∞ and folds the comparisons by
  `and` over all four axes. The fold is 1 only if every comparison is 1, and an extended real whose absolute value is
  below +∞ is neither +∞ nor -∞, so it is a real.
-/
import proofs.«100322_j52261162058330_1_alg».proof.Pre_finite_inputs
import Idealize.ShloMosaic.PureOps.Ideal
import Idealize.ShloMosaic.Lib.ReduceAll
import Idealize.ShloMosaic.Lib.ValueIdx

noncomputable section

namespace Cert.Finite

open Idealize.ShloMosaic

/-- The word 0x7F800000 is +∞. -/
theorem inf_word : Ideal.ofBits .f32 0x7F800000#32 = (⊤ : EReal) := by simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- A comparison bit that is 1 says the comparison holds. -/
theorem lt_of_cmp_olt (a b : EReal) (h : Ideal.cmp .olt a b = 1#1) : a < b := by
  by_contra hn
  have h0 : Ideal.cmp .olt a b = 0#1 := by simp [Ideal.cmp, hn]
  rw [h0] at h
  exact absurd h (by decide)

/-- Every entry of an argument array that meets the precondition is a real. -/
theorem entries_real [Cert.Pre_finite_inputs.Facts] (x : FVec Ideal Cert.Pre_finite_inputs.S2x16x2048x64 .f32)
    (h : Cert.Pre_finite_inputs.fn (F := Ideal) x = fun _ => 1#1) (i : Cert.Pre_finite_inputs.S2x16x2048x64.Idx) :
    ∃ r : ℝ, x i = (r : EReal) := by
  haveI : Subsingleton Cert.Pre_finite_inputs.S_.Idx := ⟨fun a b => funext fun d => d.elim0⟩
  have h0 := congrFun h ValueIdx.ix0
  dsimp only [Cert.Pre_finite_inputs.fn] at h0
  have hi := Host.reduce_andi_all _ _ _ _ _ h0 i
  have hc : Ideal.cmp .olt (max (x i) (-(x i))) (Ideal.ofBits .f32 0x7F800000#32) = 1#1 := hi
  have hlt := lt_of_cmp_olt _ _ hc
  rw [inf_word] at hlt
  exact real_of_abs_lt_top _ hlt

end Cert.Finite

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.LibGram.lean ====
/-
  A matrix product that contracts the first axis of both operands, read at an entry.

  For dimension numbers that contract the left operand's axis 0 with the right operand's axis 0 and have no batch
  axis, entry (p, q) of the product of a [K × M] array with a [K × N] array is the sum over k of left (k, p) times
  right (k, q): the product Lᵀ R, for the vector unit's product into a zero accumulator. The hypotheses are the
  printed dimension numbers, each closed by `rfl` at a use.
-/
import Idealize.ShloMosaic.PureOps.Ideal
import Idealize.ShloMosaic.PureOps.Ideal.Laws
import Idealize.ShloMosaic.Lib.ValueIdx

noncomputable section

namespace Cert.LibGram

open Idealize.ShloMosaic Idealize.ShloMosaic.ValueIdx

variable {M K N : ℕ} (d : DotDims ⟨2, ![K, M]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the contraction index. -/
theorem lhs_row (hlc : d.lhsContracting = [0]) (j : (⟨2, ![M, N]⟩ : Shape).Idx) (k : d.contr.Idx) :
    (d.lhsIdx j k 0).val = (k ⟨0, by rw [d.rank_contr, hlc]; exact Nat.one_pos⟩).val :=
  d.lhsIdx_val_of_single hlc j k

/-- The left operand's column is the result's row. -/
theorem lhs_col (hln : d.lhsNonContracting = [1]) (hlb : d.lhsBatch = [])
    (j : (⟨2, ![M, N]⟩ : Shape).Idx) (k : d.contr.Idx) : (d.lhsIdx j k 1).val = (j 0).val := by
  have hb : (1 : Fin 2) ∉ d.lhsBatch := by rw [hlb]; exact List.not_mem_nil
  have hn : (1 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [1]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [0]) : d.contr.rank = 1 := by rw [d.rank_contr, hlc]; rfl

theorem contr_size (hlc : d.lhsContracting = [0]) :
    d.contr.size ⟨0, by rw [contr_rank d hlc]; exact Nat.one_pos⟩ = K := by
  have h := d.size_contr 0 (by rw [hlc]; exact Nat.one_pos)
  rw [h]
  simp [hlc]

/-- The sum over the contraction index is the sum over k of left (k, p) · right (k, q). -/
theorem sum_contr (hlc : d.lhsContracting = [0]) (hrc : d.rhsContracting = [0]) (hln : d.lhsNonContracting = [1])
    (hrn : d.rhsNonContracting = [1]) (hlb : d.lhsBatch = []) (hrb : d.rhsBatch = [])
    (x : (⟨2, ![K, M]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 kk p) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 kk p := by
    funext a; apply Fin.ext
    match a with
    | ⟨0, _⟩ => exact (lhs_row d hlc _ _).trans hk
    | ⟨1, _⟩ => exact lhs_col d hln hlb _ _
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [0]) (hrc : d.rhsContracting = [0]) (hln : d.lhsNonContracting = [1])
    (hrn : d.rhsNonContracting = [1]) (hlb : d.lhsBatch = []) (hrb : d.rhsBatch = [])
    (x : FVec Ideal ⟨2, ![K, M]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 kk p) * w (ix2 kk q) := by
  rw [Ideal.matmul_constant_zero_apply]
  exact sum_contr d hlc hrc hln hrn hlb hrb x w p q

end Cert.LibGram

end
-- ==== Proof.LibCast.lean ====
/-
  Two leading unit axes dropped or added by a shape cast, read at an index.

  A [1, 1, a, b] array cast to [a, b] reads, at (i, j), the operand at (0, 0, i, j); an [a, b] array cast to
  [1, 1, a, b] reads, at (u, v, i, j), the operand at (i, j). Both casts keep the row-major position.
-/
import Idealize.ShloMosaic.Lib.Pipeline.Value
import Idealize.ShloMosaic.Lib.ValueIdx

noncomputable section

namespace Cert.LibCast

open Idealize.ShloMosaic Idealize.ShloMosaic.ValueIdx

variable {α : Type}

/-- Dropping two leading unit axes. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- Adding two leading unit axes. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv, Nat.zero_mul, Nat.zero_add])

end Cert.LibCast

end
-- ==== Proof.Block.lean ====
/-
  What the kernel body stores, at an index, from the block it loaded.

  The body loads one (batch, head) block v of shape [1, 1, 2048, 64], drops the two unit axes, forms the 64 × 64
  matrix G e q = Σ t, v t e · v t q by contracting the 2048 rows of the block with themselves, multiplies the
  block by G, and puts the two unit axes back. A change of float format is the identity on the extended reals, so at
  (0, 0, p, q) the stored value is
      Σ e, v p e · (Σ t, v t e · v t q).
-/
import proofs.«100322_j52261162058330_1_alg».proof.Proof.Gen.KernelIdeal.Skeleton
import proofs.«100322_j52261162058330_1_alg».proof.Proof.LibDense
import proofs.«100322_j52261162058330_1_alg».proof.Proof.LibGram
import proofs.«100322_j52261162058330_1_alg».proof.Proof.LibCast

noncomputable section

namespace Cert.KernelIdeal.Block

open Cert.KernelIdeal Cert.KernelIdeal.Gen Idealize.ShloMosaic Idealize.ShloMosaic.ValueIdx

/-- The stored value at (0, 0, p, q), from the loaded block. -/
theorem stored_apply (v : FVec Ideal S1x1x2048x64 .f32) (p : Fin 2048) (q : Fin 64) :
    k0_pay1 (F := Ideal) v (ix4 (0 : Fin 1) (0 : Fin 1) p q)
      = ∑ e : Fin 64, v (ix4 (0 : Fin 1) (0 : Fin 1) p e)
          * (∑ t : Fin 2048, v (ix4 (0 : Fin 1) (0 : Fin 1) t e) * v (ix4 (0 : Fin 1) (0 : Fin 1) t q)) := by
  unfold k0_pay1
  -- the two unit axes put back, then the block times G
  refine (Cert.LibCast.shapeCast_ab_11ab_apply _ _ 0 0 p q).trans ?_
  refine (Cert.LibDense.matmul_zero_apply dot_S2048x64_S64x64_S2048x64_1_0_0_1_n_n none rfl rfl rfl rfl rfl rfl _ _ p q).trans ?_
  refine Finset.sum_congr rfl fun e _ => ?_
  -- the left factor: the block's entry (p, e)
  have hl : ∀ (r : Fin 2048) (c : Fin 64),
      (truncf (F := Ideal) .bf16 (shapeCast S2048x64 v shapeCasts_S1x1x2048x64_S2048x64) bitsLt_bf16_f32) (ix2 r c)
        = v (ix4 (0 : Fin 1) (0 : Fin 1) r c) := fun r c =>
    Cert.LibCast.shapeCast_11ab_ab_apply v shapeCasts_S1x1x2048x64_S2048x64 r c
  rw [hl p e]
  congr 1
  -- the right factor: G at (e, q), the rows of the block contracted with themselves
  show (matmul (F := Ideal) dot_S2048x64_S2048x64_S64x64_0_0_1_1_n_n none _ _ (constant S64x64 .f32 0x00000000#32)) (ix2 e q) = _
  refine (Cert.LibGram.matmul_zero_apply dot_S2048x64_S2048x64_S64x64_0_0_1_1_n_n none rfl rfl rfl rfl rfl rfl _ _ e q).trans ?_
  refine Finset.sum_congr rfl fun t _ => ?_
  rw [hl t e, hl t q]

end Cert.KernelIdeal.Block

end
-- ==== Proof.Whole.lean ====
/-
  The kernel's output array after the run is the second arrangement of the argument array.

  The grid has one point per (batch, head) pair; at point t the input window and the output window both sit on the
  block [1, 1, 2048, 64] at block index (b, h, 0, 0). The body stores, at (0, 0, p, q) of the output block,
  Σ e, v p e · (Σ t, v t e · v t q) of the input block v, and v r c is x (b, h, r, c): so point t writes back block t
  of the array i ↦ gramApplied x (i 0) (i 1) (i 2) (i 3). The 32 blocks fill the array, so the array ends at that function.
-/
import proofs.«100322_j52261162058330_1_alg».proof.Proof.Gen.KernelIdeal.Value
import proofs.«100322_j52261162058330_1_alg».proof.Proof.Block
import proofs.«100322_j52261162058330_1_alg».proof.Proof.Regroup

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-- The second arrangement as one array. -/
def gramArray (x : S2x16x2048x64.Idx → EReal) : S2x16x2048x64.Idx → EReal :=
  fun i => Cert.Regroup.gramApplied x (i 0) (i 1) (i 2) (i 3)

/-- What the body stores at a block index j, when the loaded block v is head (i 0, i 1) of x and j sits at row i 2 and
    column i 3: the second arrangement of x at i. -/
theorem stored_eq_gram (x : S2x16x2048x64.Idx → EReal) (v : FVec Ideal S1x1x2048x64 .f32) (j : S1x1x2048x64.Idx)
    (i : S2x16x2048x64.Idx)
    (hv : ∀ (r : Fin 2048) (cc : Fin 64), v (ix4 (0 : Fin 1) (0 : Fin 1) r cc) = x (ix4 (n0 := 2) (n1 := 16) (n2 := 2048) (n3 := 64) (i 0) (i 1) r cc))
    (h2 : (i 2).val = (j 2).val) (h3 : (i 3).val = (j 3).val) :
    k0_pay1 (F := Ideal) v j = gramArray x i := by
  have hj : j = ix4 (n0 := 1) (n1 := 1) (n2 := 2048) (n3 := 64) (0 : Fin 1) (0 : Fin 1) (j 2) (j 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  have e2 : (i 2 : Fin 2048) = j 2 := Fin.ext h2
  have e3 : (i 3 : Fin 64) = j 3 := Fin.ext h3
  refine (congrArg (k0_pay1 (F := Ideal) v) hj).trans ((Cert.KernelIdeal.Block.stored_apply v (j 2) (j 3)).trans ?_)
  unfold gramArray Cert.Regroup.gramApplied
  rw [e2, e3]
  refine Finset.sum_congr rfl fun e _ => ?_
  refine congrArg₂ (· * ·) (hv (j 2) e) (Finset.sum_congr rfl fun t _ => ?_)
  exact congrArg₂ (· * ·) (hv t e) (hv t (j 3))

/-- The printed index maps, decided over the 32 grid points: both windows sit at block index (b, h, 0, 0). -/
theorem idx_facts : ∀ t : Fin cfg0.N,
    win0_0.index t (0 : Fin 4) = win0_1.index t (0 : Fin 4) ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) ≤ 1 ∧ win0_1.index t (1 : Fin 4) ≤ 15 :=
  (by decide +kernel : ∀ t : Fin grid0.N, _)

/-- Every (batch, head) pair is some point's. -/
theorem idx_onto : ∀ (q0 : Fin 2) (q1 : Fin 16), ∃ t : Fin cfg0.N, win0_1.index t = ![q0.val, q1.val, 0, 0] :=
  (by decide +kernel : ∀ (q0 : Fin 2) (q1 : Fin 16), ∃ t : Fin grid0.N, win0_1.index t = ![q0.val, q1.val, 0, 0])

/-- Point t writes back block t of the second arrangement of the argument array. -/
theorem flushed_eq (c : Dev nD) (t : Fin cfg0.N) :
    (dats m 0 c).flushed 1 t = ((cfg0.win 1).blk t).view.read (Elt Ideal) (gramArray (V m c main_arg0)) := by
  rw [Cert.KernelIdeal.Value.flushed1]
  unfold out0_1
  rw [View.canon_unit_zero zero_offsets]
  simp only [View.ld_unit_zero (S := S1x1x2048x64) zero_offsets]
  obtain ⟨f0, f1, f2, f3, g2, g3, -, -⟩ := idx_facts t
  refine funext fun (j : S1x1x2048x64.Idx) => ?_
  show k0_pay1 (F := Ideal) (iblk m c 0 t) j = gramArray (V m c main_arg0) (((cfg0.win 1).blk t).view.emb j)
  refine stored_eq_gram (V m c main_arg0) (iblk m c 0 t) j (((cfg0.win 1).blk t).view.emb j) ?_ ?_ ?_
  · intro r cc
    show V m c main_arg0 (((cfg0.win 0).blk t).view.emb (ix4 (0 : Fin 1) (0 : Fin 1) r cc)) = _
    refine congrArg (V m c main_arg0) ?_
    funext a; apply Fin.ext
    match a with
    | ⟨0, _⟩ =>
      show win0_0.index t (0 : Fin 4) * 1 + 1 * 0 = win0_1.index t (0 : Fin 4) * 1 + 1 * (j 0).val
      have hj : (j 0).val < 1 := (j 0).isLt
      omega
    | ⟨1, _⟩ =>
      show win0_0.index t (1 : Fin 4) * 1 + 1 * 0 = win0_1.index t (1 : Fin 4) * 1 + 1 * (j 1).val
      have hj : (j 1).val < 1 := (j 1).isLt
      omega
    | ⟨2, _⟩ =>
      show win0_0.index t (2 : Fin 4) * 2048 + 1 * r.val = r.val
      omega
    | ⟨3, _⟩ =>
      show win0_0.index t (3 : Fin 4) * 64 + 1 * cc.val = cc.val
      omega
  · show win0_1.index t (2 : Fin 4) * 2048 + 1 * (j 2).val = (j 2).val
    omega
  · show win0_1.index t (3 : Fin 4) * 64 + 1 * (j 3).val = (j 3).val
    omega

/-- An index of the array is in point t's block iff each coordinate is in the block's range on its axis. -/
theorem mem_blk (t : Fin cfg0.N) (i : S2x16x2048x64.Idx) :
    i ∈ ((cfg0.win 1).blk t).view.set ↔ ∀ a : Fin 4, win0_1.index t a * S1x1x2048x64.size a ≤ (i a).val
      ∧ (i a).val < win0_1.index t a * S1x1x2048x64.size a + S1x1x2048x64.size a := by
  show i ∈ ((View.whole main_v0).slice (win0_1.rect t)).set ↔ _
  rw [View.set_slice_whole, Rect.mem_set_unit]
  exact Iff.rfl

/-- The 32 blocks fill the array: index i lies in the block of the point at (i 0, i 1). -/
theorem cover (i : S2x16x2048x64.Idx) :
    ∃ t : Fin cfg0.N, (cfg0.win 1).flush t = true ∧ i ∈ ((cfg0.win 1).blk t).view.set := by
  obtain ⟨t, ht⟩ := idx_onto (i 0) (i 1)
  have q0 : win0_1.index t (0 : Fin 4) = (i 0).val := congrFun ht 0
  have q1 : win0_1.index t (1 : Fin 4) = (i 1).val := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 1 ≤ (i 1).val ∧ (i 1).val < win0_1.index t (1 : Fin 4) * 1 + 1
    omega
  | ⟨2, _⟩ =>
    show win0_1.index t (2 : Fin 4) * 2048 ≤ (i 2).val ∧ (i 2).val < win0_1.index t (2 : Fin 4) * 2048 + 2048
    have hi : (i 2).val < 2048 := (i 2).isLt
    omega
  | ⟨3, _⟩ =>
    show win0_1.index t (3 : Fin 4) * 64 ≤ (i 3).val ∧ (i 3).val < win0_1.index t (3 : Fin 4) * 64 + 64
    have hi : (i 3).val < 64 := (i 3).isLt
    omega

/-- The output array after the run. -/
theorem final (c : Dev nD) : (dats m 0 c).arrAt 1 cfg0.N = gramArray (m ((c : Thread nD τ).loc main_arg0)) :=
  (dats m 0 c).arrAt_eq_of_cover 1 (gramArray (V m c main_arg0)) (fun t _ => flushed_eq m c t) cover

/-- The run, with the output array named as one function of the argument array. -/
theorem run : θ_run defs (onTc (τ := τ) (main (F := Ideal))) ⟨m, fun _ => 0, ρ⟩ fun r => ∀ c : Dev nD,
      r.2.mem ((c : Thread nD τ).loc main_v0) = gramArray (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Whole

end
-- ==== Proof.RefValue.lean ====
/-
  The reference's result is the first arrangement: at (b, h, p, q) the sum over rows t of the row product of rows p
  and t of head (b, h) times the value x (b, h, t, q). It is read off the two contractions one at a time: the first
  contracts the last axis of x with itself (the 2048 × 2048 row products per head), the second contracts those with
  the rows of x.
-/
import proofs.«100322_j52261162058330_1_alg».proof.Proof.Gen.ReferenceIdeal.Read
import proofs.«100322_j52261162058330_1_alg».proof.Proof.Regroup

noncomputable section

namespace Cert.ReferenceIdeal.RefValue

open Cert.ReferenceIdeal Cert.ReferenceIdeal.Read Idealize.ShloMosaic Idealize.ShloMosaic.ValueIdx

/-- The second contraction's result, as one function of the argument. -/
theorem result_eq (x : (⟨S2x16x2048x64, .f32⟩ : BufTy).Contents (Elt Ideal)) :
    val_main_v1 (F := Ideal) x = Cert.Regroup.attn x := by
  funext i
  rw [val_main_v1_apply]
  unfold Cert.Regroup.attn Cert.Regroup.scoresApplied
  refine Finset.sum_congr rfl fun t _ => ?_
  rw [val_main_v0_apply]
  -- the three operand indices, by coordinates
  have e1 : ∀ e : Fin 64, lidx_main_v0 (lidx_main_v1 i t) e
      = ix4 (n0 := 2) (n1 := 16) (n2 := 2048) (n3 := 64) (i 0) (i 1) (i 2) e := fun e =>
    funext fun a => Fin.ext (by match a with | ⟨0, _⟩ => rfl | ⟨1, _⟩ => rfl | ⟨2, _⟩ => rfl | ⟨3, _⟩ => rfl)
  have e2 : ∀ e : Fin 64, ridx_main_v0 (lidx_main_v1 i t) e
      = ix4 (n0 := 2) (n1 := 16) (n2 := 2048) (n3 := 64) (i 0) (i 1) t e := fun e =>
    funext fun a => Fin.ext (by match a with | ⟨0, _⟩ => rfl | ⟨1, _⟩ => rfl | ⟨2, _⟩ => rfl | ⟨3, _⟩ => rfl)
  have e3 : ridx_main_v1 i t = ix4 (n0 := 2) (n1 := 16) (n2 := 2048) (n3 := 64) (i 0) (i 1) t (i 3) :=
    funext fun a => Fin.ext (by match a with | ⟨0, _⟩ => rfl | ⟨1, _⟩ => rfl | ⟨2, _⟩ => rfl | ⟨3, _⟩ => rfl)
  simp only [e1, e2, e3]

end Cert.ReferenceIdeal.RefValue

end
-- ==== Proof.lean ====
/-
  Unnormalised attention with queries, keys and values all equal to one array x of shape [2, 16, 2048, 64].

  Within one (batch, head) pair write x t e for row t, column e. The reference forms the 2048 × 2048 matrix of row
  products and applies it to the values: out p q = Σ t, (Σ e, x p e · x t e) · x t q. The kernel forms the 64 × 64 matrix
  G e q = Σ t, x t e · x t q first and applies each row to it: out p q = Σ e, x p e · (Σ t, x t e · x t q). A change of
  float format is the identity on the extended reals, and a product into a zero accumulator is the plain sum, so at
  the ideal instance both are exact sums of products, and they are equal by associativity of the matrix product:
  distribute, swap the two sums, compare term by term. On the extended reals that law needs every entry finite,
  which is the precondition.

  The three frames: the two kernel programs' are the generated ones; the reference has no kernel, and its frame is its
  run with the result dropped. The idealization rewrote no operation, so there is nothing to preserve. For the
  equivalence both runs are posted at the same function of the argument array, the first arrangement: the kernel's
  output array is the second arrangement block by block (one grid point per head, the 32 blocks filling the array),
  hence the first under the precondition; the reference's result is the first arrangement by reading its two
  contractions at an index.
-/
import proofs.«100322_j52261162058330_1_alg».proof.Defs
import proofs.«100322_j52261162058330_1_alg».proof.Proof.Gen.Kernel
import proofs.«100322_j52261162058330_1_alg».proof.Proof.Gen.Kernel.Frame
import proofs.«100322_j52261162058330_1_alg».proof.Proof.Gen.KernelIdeal
import proofs.«100322_j52261162058330_1_alg».proof.Proof.Gen.KernelIdeal.Frame
import proofs.«100322_j52261162058330_1_alg».proof.Proof.Gen.KernelIdeal.Value
import proofs.«100322_j52261162058330_1_alg».proof.Proof.Gen.ReferenceIdeal
import proofs.«100322_j52261162058330_1_alg».proof.Proof.Gen.ReferenceIdeal.Run
import proofs.«100322_j52261162058330_1_alg».proof.Proof.Gen.ReferenceIdeal.Read
import proofs.«100322_j52261162058330_1_alg».proof.Proof.Gen.Pre_finite_inputs
import proofs.«100322_j52261162058330_1_alg».proof.Proof.Regroup
import proofs.«100322_j52261162058330_1_alg».proof.Proof.Finite
import proofs.«100322_j52261162058330_1_alg».proof.Proof.Whole
import proofs.«100322_j52261162058330_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at the first arrangement of the argument array. -/
theorem algebraic : Cert.algebraic_KernelIdeal_ReferenceIdeal := by
  intro m ρ m' ρ' hpre hagree
  refine ⟨fun c => Cert.Regroup.attn (m ((c.tc : Thread Cert.KernelIdeal.nD Cert.KernelIdeal.τ).loc Cert.KernelIdeal.main_arg0)), ?_, ?_⟩
  · -- the kernel: the second arrangement, equal to the first where every entry is real
    refine (θ_run Cert.KernelIdeal.defs _ _).mono (fun r h c => ⟨(h c).1.trans ?_, (h c).2⟩)
      (Cert.KernelIdeal.Whole.run m ρ)
    funext i
    exact Cert.Regroup.gramApplied_eq _ (Cert.Finite.entries_real _ (hpre c)) (i 0) (i 1) (i 2) (i 3)
  · -- the reference: its two contractions read at an index, from an argument that agrees with the kernel's
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v1_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
